-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S2048x256 : Shape := ⟨2, ![2048, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S65536x256 .f32) (main_arg1 : FVec F S2048x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Kernel.lean ====
abbrev S65536x256 : Shape := ⟨2, ![65536, 256]⟩
abbrev S2048x256 : Shape := ⟨2, ![2048, 256]⟩
abbrev S65536x2048 : Shape := ⟨2, ![65536, 2048]⟩
abbrev S1024x256 : Shape := ⟨2, ![1024, 256]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S256x512 : Shape := ⟨2, ![256, 512]⟩
abbrev S_ : Shape := ⟨0, ![]⟩
abbrev S65536x1 : Shape := ⟨2, ![65536, 1]⟩
abbrev S65536x2305 : Shape := ⟨2, ![65536, 2305]⟩

abbrev nBuf : Space → Nat
  | .hbm => 6
  | .vmem => 6
  | .smem => 0
  | _ => 0

abbrev bufTy : (tb : Table) → Fin (tcTables nBuf tb) → BufTy
  | .hbm, ⟨0, _⟩ => ⟨S65536x256, .f32⟩
  | .hbm, ⟨1, _⟩ => ⟨S2048x256, .f32⟩
  | .hbm, ⟨2, _⟩ => ⟨S65536x2048, .f32⟩
  | .hbm, ⟨3, _⟩ => ⟨S_, .f32⟩
  | .hbm, ⟨4, _⟩ => ⟨S65536x1, .f32⟩
  | .hbm, ⟨5, _⟩ => ⟨S65536x2305, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S1024x512, .f32⟩
  | .local _ .vmem, ⟨5, _⟩ => ⟨S1024x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  inb_S512x256_S512x256_0_0 : ∀ a, (![0, 0] : Fin 2 → Nat) a + S512x256.size a ≤ S512x256.size a
  h_S512x256 : 0 < S512x256.numel
  reduces_S1024x256_S1024 : S1024x256.Reduces [1] S1024
  shapeCasts_S1024_S1024x1 : S1024.ShapeCasts S1024x1
  reduces_S512x256_S512 : S512x256.Reduces [1] S512
  shapeCasts_S512_S1x512 : S512.ShapeCasts S1x512
  bitsLt_bf16_f32 : FTy.bits .bf16 < FTy.bits .f32
  transposes_S512x256_p1_0_S256x512 : S512x256.Transposes [1, 0] S256x512
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  bcast_S_S65536x1 : S_.BroadcastsInDim S65536x1 (![] : Fin 0 → Fin S65536x1.rank)
  concatenates_S65536x1_S65536x256_S65536x2048_S65536x2305_d1 : Shape.Concatenates [S65536x1, S65536x256, S65536x2048] S65536x2305 1
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x256.size a
  hwx0_1 : ∀ i : grid0.Coords, EltTy.bits .f32 = 32 ∨ (Rect.block (s := S2048x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S65536x2048.size a
  hwx0_2 : ∀ i : grid0.Coords, EltTy.bits .f32 = 32 ∨ (Rect.block (s := S65536x2048) S1024x512.size (cc0_transform_2 i) (hinb0_2 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x256 : Shape := ⟨2, ![65536, 256]⟩
abbrev S2048x256 : Shape := ⟨2, ![2048, 256]⟩
abbrev S_ : Shape := ⟨0, ![]⟩
abbrev S65536 : Shape := ⟨1, ![65536]⟩
abbrev S65536x1 : Shape := ⟨2, ![65536, 1]⟩
abbrev S2048 : Shape := ⟨1, ![2048]⟩
abbrev S1x2048 : Shape := ⟨2, ![1, 2048]⟩
abbrev S65536x2048 : Shape := ⟨2, ![65536, 2048]⟩
abbrev S65536x2305 : Shape := ⟨2, ![65536, 2305]⟩

abbrev nBuf : Space → Nat
  | .hbm => 25
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S2048x256, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S2048x256, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S65536x2048, .f32⟩
  | .hbm, ⟨11, _⟩ => ⟨S65536x2048, .f32⟩
  | .hbm, ⟨12, _⟩ => ⟨S65536x2048, .f32⟩
  | .hbm, ⟨13, _⟩ => ⟨S65536x2048, .f32⟩
  | .hbm, ⟨14, _⟩ => ⟨S_, .f32⟩
  | .hbm, ⟨15, _⟩ => ⟨S65536x2048, .f32⟩
  | .hbm, ⟨16, _⟩ => ⟨S65536x2048, .f32⟩
  | .hbm, ⟨17, _⟩ => ⟨S65536x2048, .f32⟩
  | .hbm, ⟨18, _⟩ => ⟨S_, .f32⟩
  | .hbm, ⟨19, _⟩ => ⟨S65536x2048, .f32⟩
  | .hbm, ⟨20, _⟩ => ⟨S65536x2048, .f32⟩
  | .hbm, ⟨21, _⟩ => ⟨S65536x2048, .f32⟩
  | .hbm, ⟨22, _⟩ => ⟨S_, .f32⟩
  | .hbm, ⟨23, _⟩ => ⟨S65536x1, .f32⟩
  | .hbm, ⟨24, _⟩ => ⟨S65536x2305, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S2048x256_S2048_d1 : S2048x256.ReducesTo [1] S2048
  bcast_S2048_S1x2048_1 : S2048.BroadcastsInDim S1x2048 (![1] : Fin 1 → Fin S1x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  bcast_S_S65536x2048 : S_.BroadcastsInDim S65536x2048 (![] : Fin 0 → Fin S65536x2048.rank)
  bcast_S_S65536x1 : S_.BroadcastsInDim S65536x1 (![] : Fin 0 → Fin S65536x1.rank)
  concatenates_S65536x1_S65536x256_S65536x2048_S65536x2305_d1 : Shape.Concatenates [S65536x1, S65536x256, S65536x2048] S65536x2305 1
  dot_S65536x256_S2048x256_S65536x2048_1_1_0_0_n_n_wf : DotDims.WF S65536x256 S2048x256 S65536x2048 [1] [1] [0] [0] [] []

variable [Facts₀]

def dot_S65536x256_S2048x256_S65536x2048_1_1_0_0_n_n : DotDims S65536x256 S2048x256 S65536x2048 where
  lhsContracting := [1]
  rhsContracting := [1]
  lhsNonContracting := [0]
  rhsNonContracting := [0]
  lhsBatch := []
  rhsBatch := []
  wf := dot_S65536x256_S2048x256_S65536x2048_1_1_0_0_n_n_wf

class Facts : Prop extends Facts₀ where

variable [Facts]
-- ==== Proof.BitsRegion.lean ====
/-
  The one pallas_call of the word-level kernel's @main, run at any float family `F`, and the three host lines after it.

  The grid has 64 × 4 points. At point (i, j) the body is handed rows 1024·i … 1024·i + 1023 of `data` and rows
  512·j … 512·j + 511 of `centers`, and writes, in ONE store that covers its buffer, the 1024 × 512 tile
  `exp (-5 · (‖x‖² + ‖c‖² - 2 · x·cᵀ))` of the Gaussian kernel matrix: nothing is carried from one point to the next, the two
  input buffers are only read, and the output buffer's earlier contents never reach a result. So after every point each input
  buffer still holds its block and the output buffer holds `tile` of the two input blocks. After the region @main writes a scalar
  one, spreads it to a column, and joins that column, `data` and the kernel matrix along axis 1: three lines, none of which
  writes an array the pipeline stages or allocates anything.

  Stated here: the body's triple, the pipeline's proof data, the body obligation at a symbolic grid point, the run of @main to the
  library's frame post (the arrays at what the proof data write back, every other buffer at what the three lines leave), and from
  it that both arguments end as launched.
-/
import proofs.«113538_j31482110280409_1_alg».proof.Proof.Gen.Kernel.Launch
import proofs.«113538_j31482110280409_1_alg».proof.Proof.Gen.Kernel.Skeleton
import proofs.«113538_j31482110280409_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- a rectangle of 1024 × 512 cells is looked through once per coordinate of its long axis
set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered. @main begins with the region, so these are the launch contents (the fold over
    no host line). -/
abbrev V0 (c : Dev nD) : Valuation τ sig (Elt F) := StableHlo.after (List.flatten []) (fun b => m (c, b))
/-- The same, read at a TensorCore reference. -/
abbrev V (c : Dev nD) (b : Ref sig .tc) : Buf (Elt F) ((c : Thread nD τ).loc b) := V0 m c (Proc.devRef .tc b)

theorem V_data (c : Dev nD) : V m c main_arg0 = m ((c : Thread nD τ).loc main_arg0) := rfl
theorem V_centers (c : Dev nD) : V m c main_arg1 = m ((c : Thread nD τ).loc main_arg1) := rfl

/-- The three lines after the region allocate nothing. -/
theorem tail_fresh : (hostOps1 : List (HloOp τ sig (Elt F))).Forall fun op => op.fresh = ∅ := by
  simp only [List.Forall]; repeat' constructor

/-- @main is the region continued by the three lines: from the launch contents it reduces to the region entered at `V`, with the
    lines as what follows. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- Each of the three lines touches only unscoped TensorCore buffers: the pipeline's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- Each line writes its own result buffer only — the scalar, the column, the joined matrix — and none of these is `data`,
    `centers` or the kernel matrix. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.nary_writes, Finset.mem_singleton] <;> exact StableHlo.devRef_ne_of_ne (by decide)

/-! ## The blocks the body is handed -/

/-- Window `w`'s block at grid point `t`, cut out of the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The `data` window is fetched only when its row tile changes; at the points between, the buffer still holds the block of the
    last fetch, which is the block of this point, as long as the body leaves it in place. -/
theorem data_buffer_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The `centers` window likewise (it is fetched at every point). -/
theorem centers_buffer_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The whole of each buffer: the body's two loads and its store all go through these. -/
abbrev allX : Rect S1024x256 := Rect.unit (s := S1024x256) ![0, 0] S1024x256.size inb_S1024x256_S1024x256_0_0
abbrev allC : Rect S512x256 := Rect.unit (s := S512x256) ![0, 0] S512x256.size inb_S512x256_S512x256_0_0
abbrev allT : Rect S1024x512 := Rect.unit (s := S1024x512) ![0, 0] S1024x512.size inb_S1024x512_S1024x512_0_0

/-- What the body leaves in the output buffer, from the two input blocks: its one store, of the kernel-matrix tile computed from the
    loaded blocks, read back as the buffer's contents. -/
def tile (x : Vec F S1024x256 .f32) (cs : Vec F S512x256 .f32) : Vec F S1024x512 .f32 :=
  View.canon [⟨allT, k0_pay1 (View.ld x allX) (View.ld cs allC)⟩]

/-- The one store is of the whole buffer, so every cell is written. -/
theorem tile_covers (p : Vec F S1024x512 .f32) (y : S1024x512.Idx) :
    ∃ pc ∈ ([⟨allT, p⟩] : List (View.Piece (Elt F) S1024x512 .f32)), y ∈ pc.1.set :=
  View.cover_of_tiled [⟨allT, p⟩] S1024x512.size (by rfl) y

set_option maxHeartbeats 1000000 in
/-- The body on three whole buffers, the inputs at `x` and `cs` and the output at anything, runs to its end holding the inputs as
    they were and the output at `tile x cs`. -/
theorem body_triple (c : Dev nD) (E : Set ℕ) (i : grid0.Coords)
    (arg2 : Memref sig .tc .vmem S1024x256 .f32) (harg2 : arg2.IsWhole) (arg3 : Memref sig .tc .vmem S512x256 .f32) (harg3 : arg3.IsWhole)
    (arg4 : Memref sig .tc .vmem S1024x512 .f32) (harg4 : arg4.IsWhole)
    (x : Vec F S1024x256 .f32) (cs : Vec F S512x256 .f32) (K : PUnit → sProp 𝕄) :
    iprop(owns (c : Thread nD τ) arg2 fullShare x ∗ owns (c : Thread nD τ) arg3 fullShare cs ∗ (∃ d, owns (c : Thread nD τ) arg4 fullShare d)
        ∗ (iprop(owns (c : Thread nD τ) arg2 fullShare x ∗ owns (c : Thread nD τ) arg3 fullShare cs ∗ owns (c : Thread nD τ) arg4 fullShare (tile x cs)) -∗ K ⟨⟩))
      ⊢ wp frame (wpE (defs₀ (F := F)) Variants.none c none) E (cc0__rbf_kernel i arg2 harg2 arg3 harg3 arg4 harg4) K := by
  simp only [cc0__rbf_kernel_eq_skeleton]; unfold cc0__rbf_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-! ## The pipeline's proof data -/

/-- On core `c`: the arrays as the region finds them; after the body at point `t` each input buffer at its block and the output
    buffer at `tile` of the two blocks; the region keeps nothing else (the library's invariant for a body with no scratch); full
    shares, nothing owed to another core. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.ΦA spec0 c
  q _ := fullShare
  owed _ := 0

theorem dats_A (c : Dev nD) (w : Fin cfg0.W) : (dats m 0 c).A w = V m c (Pipeline.arrRef spec0 w) := by
  dsimp only [dats]

theorem after_data (c : Dev nD) (t : Fin cfg0.N) : (dats m 0 c).after 0 t = blockAt m c 0 t := by dsimp only [dats]
theorem after_centers (c : Dev nD) (t : Fin cfg0.N) : (dats m 0 c).after 1 t = blockAt m c 1 t := by dsimp only [dats]
theorem after_out (c : Dev nD) (t : Fin cfg0.N) : (dats m 0 c).after 2 t = tile (blockAt m c 0 t) (blockAt m c 1 t) := by dsimp only [dats]

theorem data_buffer (c : Dev nD) (t : Fin cfg0.N) (d) : (dats m 0 c).before 0 t d = blockAt m c 0 t :=
  data_buffer_of m (dats m 0 c) (dats_A m c 0) (after_data m c) t d
theorem centers_buffer (c : Dev nD) (t : Fin cfg0.N) (d) : (dats m 0 c).before 1 t d = blockAt m c 1 t :=
  centers_buffer_of m (dats m 0 c) (dats_A m c 1) (after_centers m c) t d

/-! ## The body obligation at a symbolic point -/

/-- What the pipeline calls the body with at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it takes back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so the body's triple applies; the invariant and the core's dues pass through
    unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [data_buffer, centers_buffer]
  rw [show (dats m 0 c).Φ t.succ = (dats m 0 c).Φ t.castSucc from rfl,
    show (dats m 0 c).owesAt () t.succ = (dats m 0 c).owesAt () t.castSucc from rfl,
    after_data, after_centers, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## The run, and the arguments at its end -/

set_option backward.isDefEq.respectTransparency.types false in
/-- From any memory with zero counters every weakly fair execution of @main terminates; at its end every array of the pipeline
    holds what the proof data wrote back, and every other unscoped buffer what the three lines after the region leave there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_allocates_nothing) (hkeep := tail_keeps_arrays)
    (hmain := main_around m Variants.none) (hA := dats_A m) (hΦ := fun _ _ => rfl)

/-- Both arguments are input windows: the pipeline only reads them, so each ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((dats_A m c 0).trans (V_data m c))),
      ((h c).1 1).trans (((dats m 0 c).arrAt_in 1 rfl _).trans ((dats_A m c 1).trans (V_centers m c)))⟩) (run_main m ρ)

end Cert.Kernel.Region

end
-- ==== Proof.IdealRegion.lean ====
/-
  The one pallas_call of the idealized kernel's @main, run at any float family `F`, and the three host lines after it.

  The grid has 64 × 4 points. At point (i, j) the body is handed rows 1024·i … 1024·i + 1023 of `data` and rows
  512·j … 512·j + 511 of `centers`, and writes, in ONE store that covers its buffer, the 1024 × 512 tile
  `exp (-5 · (‖x‖² + ‖c‖² - 2 · x·cᵀ))` of the Gaussian kernel matrix: nothing is carried from one point to the next, the two
  input buffers are only read, and the output buffer's earlier contents never reach a result. So after every point each input
  buffer still holds its block and the output buffer holds `tile` of the two input blocks. After the region @main writes a scalar
  one, spreads it to a column, and joins that column, `data` and the kernel matrix along axis 1: three lines, none of which
  writes an array the pipeline stages or allocates anything.

  Stated here: the body's triple, the pipeline's proof data, the body obligation at a symbolic grid point, the run of @main to the
  library's frame post (the arrays at what the proof data write back, every other buffer at what the three lines leave), and from
  it that both arguments end as launched.
-/
import proofs.«113538_j31482110280409_1_alg».proof.Proof.Gen.KernelIdeal.Launch
import proofs.«113538_j31482110280409_1_alg».proof.Proof.Gen.KernelIdeal.Skeleton
import proofs.«113538_j31482110280409_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- a rectangle of 1024 × 512 cells is looked through once per coordinate of its long axis
set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered. @main begins with the region, so these are the launch contents (the fold over
    no host line). -/
abbrev V0 (c : Dev nD) : Valuation τ sig (Elt F) := StableHlo.after (List.flatten []) (fun b => m (c, b))
/-- The same, read at a TensorCore reference. -/
abbrev V (c : Dev nD) (b : Ref sig .tc) : Buf (Elt F) ((c : Thread nD τ).loc b) := V0 m c (Proc.devRef .tc b)

theorem V_data (c : Dev nD) : V m c main_arg0 = m ((c : Thread nD τ).loc main_arg0) := rfl
theorem V_centers (c : Dev nD) : V m c main_arg1 = m ((c : Thread nD τ).loc main_arg1) := rfl

/-- The three lines after the region allocate nothing. -/
theorem tail_fresh : (hostOps1 : List (HloOp τ sig (Elt F))).Forall fun op => op.fresh = ∅ := by
  simp only [List.Forall]; repeat' constructor

/-- @main is the region continued by the three lines: from the launch contents it reduces to the region entered at `V`, with the
    lines as what follows. -/
theorem main_around (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- Each of the three lines touches only unscoped TensorCore buffers: the pipeline's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- Each line writes its own result buffer only — the scalar, the column, the joined matrix — and none of these is `data`,
    `centers` or the kernel matrix. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, StableHlo.nary_writes, Finset.mem_singleton] <;> exact StableHlo.devRef_ne_of_ne (by decide)

/-! ## The blocks the body is handed -/

/-- Window `w`'s block at grid point `t`, cut out of the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The `data` window is fetched only when its row tile changes; at the points between, the buffer still holds the block of the
    last fetch, which is the block of this point, as long as the body leaves it in place. -/
theorem data_buffer_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The `centers` window likewise (it is fetched at every point). -/
theorem centers_buffer_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The whole of each buffer: the body's two loads and its store all go through these. -/
abbrev allX : Rect S1024x256 := Rect.unit (s := S1024x256) ![0, 0] S1024x256.size inb_S1024x256_S1024x256_0_0
abbrev allC : Rect S512x256 := Rect.unit (s := S512x256) ![0, 0] S512x256.size inb_S512x256_S512x256_0_0
abbrev allT : Rect S1024x512 := Rect.unit (s := S1024x512) ![0, 0] S1024x512.size inb_S1024x512_S1024x512_0_0

/-- What the body leaves in the output buffer, from the two input blocks: its one store, of the kernel-matrix tile computed from the
    loaded blocks, read back as the buffer's contents. -/
def tile (x : Vec F S1024x256 .f32) (cs : Vec F S512x256 .f32) : Vec F S1024x512 .f32 :=
  View.canon [⟨allT, k0_pay1 (View.ld x allX) (View.ld cs allC)⟩]

/-- The one store is of the whole buffer, so every cell is written. -/
theorem tile_covers (p : Vec F S1024x512 .f32) (y : S1024x512.Idx) :
    ∃ pc ∈ ([⟨allT, p⟩] : List (View.Piece (Elt F) S1024x512 .f32)), y ∈ pc.1.set :=
  View.cover_of_tiled [⟨allT, p⟩] S1024x512.size (by rfl) y

set_option maxHeartbeats 1000000 in
/-- The body on three whole buffers, the inputs at `x` and `cs` and the output at anything, runs to its end holding the inputs as
    they were and the output at `tile x cs`. -/
theorem body_triple (c : Dev nD) (E : Set ℕ) (i : grid0.Coords)
    (arg2 : Memref sig .tc .vmem S1024x256 .f32) (harg2 : arg2.IsWhole) (arg3 : Memref sig .tc .vmem S512x256 .f32) (harg3 : arg3.IsWhole)
    (arg4 : Memref sig .tc .vmem S1024x512 .f32) (harg4 : arg4.IsWhole)
    (x : Vec F S1024x256 .f32) (cs : Vec F S512x256 .f32) (K : PUnit → sProp 𝕄) :
    iprop(owns (c : Thread nD τ) arg2 fullShare x ∗ owns (c : Thread nD τ) arg3 fullShare cs ∗ (∃ d, owns (c : Thread nD τ) arg4 fullShare d)
        ∗ (iprop(owns (c : Thread nD τ) arg2 fullShare x ∗ owns (c : Thread nD τ) arg3 fullShare cs ∗ owns (c : Thread nD τ) arg4 fullShare (tile x cs)) -∗ K ⟨⟩))
      ⊢ wp frame (wpE (defs₀ (F := F)) Variants.none c none) E (cc0__rbf_kernel i arg2 harg2 arg3 harg3 arg4 harg4) K := by
  simp only [cc0__rbf_kernel_eq_skeleton]; unfold cc0__rbf_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-! ## The pipeline's proof data -/

/-- On core `c`: the arrays as the region finds them; after the body at point `t` each input buffer at its block and the output
    buffer at `tile` of the two blocks; the region keeps nothing else (the library's invariant for a body with no scratch); full
    shares, nothing owed to another core. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => tile (blockAt m c 0 t) (blockAt m c 1 t)
  Φ _ := Pipeline.ΦA spec0 c
  q _ := fullShare
  owed _ := 0

theorem dats_A (c : Dev nD) (w : Fin cfg0.W) : (dats m 0 c).A w = V m c (Pipeline.arrRef spec0 w) := by
  dsimp only [dats]

theorem after_data (c : Dev nD) (t : Fin cfg0.N) : (dats m 0 c).after 0 t = blockAt m c 0 t := by dsimp only [dats]
theorem after_centers (c : Dev nD) (t : Fin cfg0.N) : (dats m 0 c).after 1 t = blockAt m c 1 t := by dsimp only [dats]
theorem after_out (c : Dev nD) (t : Fin cfg0.N) : (dats m 0 c).after 2 t = tile (blockAt m c 0 t) (blockAt m c 1 t) := by dsimp only [dats]

theorem data_buffer (c : Dev nD) (t : Fin cfg0.N) (d) : (dats m 0 c).before 0 t d = blockAt m c 0 t :=
  data_buffer_of m (dats m 0 c) (dats_A m c 0) (after_data m c) t d
theorem centers_buffer (c : Dev nD) (t : Fin cfg0.N) (d) : (dats m 0 c).before 1 t d = blockAt m c 1 t :=
  centers_buffer_of m (dats m 0 c) (dats_A m c 1) (after_centers m c) t d

/-! ## The body obligation at a symbolic point -/

/-- What the pipeline calls the body with at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it takes back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the input buffers hold their blocks, so the body's triple applies; the invariant and the core's dues pass through
    unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [data_buffer, centers_buffer]
  rw [show (dats m 0 c).Φ t.succ = (dats m 0 c).Φ t.castSucc from rfl,
    show (dats m 0 c).owesAt () t.succ = (dats m 0 c).owesAt () t.castSucc from rfl,
    after_data, after_centers, after_out]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## The run, and the arguments at its end -/

set_option backward.isDefEq.respectTransparency.types false in
/-- From any memory with zero counters every weakly fair execution of @main terminates; at its end every array of the pipeline
    holds what the proof data wrote back, and every other unscoped buffer what the three lines after the region leave there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_allocates_nothing) (hkeep := tail_keeps_arrays)
    (hmain := main_around m Variants.none) (hA := dats_A m) (hΦ := fun _ _ => rfl)

/-- Both arguments are input windows: the pipeline only reads them, so each ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((dats_A m c 0).trans (V_data m c))),
      ((h c).1 1).trans (((dats m 0 c).arrAt_in 1 rfl _).trans ((dats_A m c 1).trans (V_centers m c)))⟩) (run_main m ρ)

end Cert.KernelIdeal.Region

end
-- ==== Proof.RbfSpec.lean ====
/-
  The Gaussian kernel matrix of two row sets, as one function of the two arrays, index by index, on the extended reals.

  For rows `x_r` of `x` and `c_q` of `cs` (both of width 256) the entry at `(r, q)` is
      exp (-5 · ((‖x_r‖² + ‖c_q‖²) - 2 · ⟨x_r, c_q⟩)),
  the squared distance written through the Gram matrix. The two scale factors stay the words the programs print for `-5.0`
  and `2.0` (both sides carry the same words, so they are never evaluated), and every sum is a finite sum of extended reals,
  which needs no finiteness: addition there is commutative and associative.

  The definition is over any numbers of rows, so that one statement serves a 1024 × 512 tile computed from two row blocks
  and the whole 65536 × 2048 matrix: `kernelMatrix_of_rows` says that an entry depends on the two rows only, hence a tile
  of the matrix is the matrix of the two blocks.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- `‖x_r‖²`: the sum over the 256 columns of the squares of row `r`. -/
def sqnorm {n : ℕ} (x : (⟨2, ![n, 256]⟩ : Shape).Idx → EReal) (r : Fin n) : EReal :=
  ∑ d : Fin 256, x (ix2 r d) * x (ix2 r d)

/-- `⟨x_r, c_q⟩`: the sum over the 256 columns of the products of row `r` of `x` and row `q` of `cs`. -/
def inner {n k : ℕ} (x : (⟨2, ![n, 256]⟩ : Shape).Idx → EReal) (cs : (⟨2, ![k, 256]⟩ : Shape).Idx → EReal) (r : Fin n) (q : Fin k) : EReal :=
  ∑ d : Fin 256, x (ix2 r d) * cs (ix2 q d)

/-- `exp (-5 · ((a + b) - 2 · g))`, the words of `-5.0` and `2.0` as printed. -/
def gauss (a b g : EReal) : EReal :=
  Ideal.exp (Ideal.ofBits .f32 0xC0A00000#32 * ((a + b) - Ideal.ofBits .f32 0x40000000#32 * g))

/-- The matrix: entry `(r, q)` from row `r` of `x` and row `q` of `cs`. -/
def kernelMatrix {n k : ℕ} (x : (⟨2, ![n, 256]⟩ : Shape).Idx → EReal) (cs : (⟨2, ![k, 256]⟩ : Shape).Idx → EReal) :
    (⟨2, ![n, k]⟩ : Shape).Idx → EReal :=
  fun j => gauss (sqnorm x (j 0)) (sqnorm cs (j 1)) (inner x cs (j 0) (j 1))

theorem kernelMatrix_ix2 {n k : ℕ} (x : (⟨2, ![n, 256]⟩ : Shape).Idx → EReal) (cs : (⟨2, ![k, 256]⟩ : Shape).Idx → EReal) (r : Fin n) (q : Fin k) :
    kernelMatrix x cs (ix2 r q) = gauss (sqnorm x r) (sqnorm cs q) (inner x cs r q) := rfl

/-- An entry depends on its two rows only: if row `r'` of `xb` is row `r` of `x` and row `q'` of `cb` is row `q` of `cs`, the
    entries `(r', q')` of the blocks' matrix and `(r, q)` of the arrays' matrix are equal. -/
theorem kernelMatrix_of_rows {n k n' k' : ℕ}
    (x : (⟨2, ![n, 256]⟩ : Shape).Idx → EReal) (cs : (⟨2, ![k, 256]⟩ : Shape).Idx → EReal)
    (xb : (⟨2, ![n', 256]⟩ : Shape).Idx → EReal) (cb : (⟨2, ![k', 256]⟩ : Shape).Idx → EReal)
    (r' : Fin n') (q' : Fin k') (r : Fin n) (q : Fin k)
    (hx : ∀ d : Fin 256, xb (ix2 r' d) = x (ix2 r d)) (hc : ∀ d : Fin 256, cb (ix2 q' d) = cs (ix2 q d)) :
    kernelMatrix xb cb (ix2 r' q') = kernelMatrix x cs (ix2 r q) := by
  rw [kernelMatrix_ix2, kernelMatrix_ix2]
  have e1 : sqnorm xb r' = sqnorm x r := Finset.sum_congr rfl fun d _ => by rw [hx d]
  have e2 : sqnorm cb q' = sqnorm cs q := Finset.sum_congr rfl fun d _ => by rw [hc d]
  have e3 : inner xb cb r' q' = inner x cs r q := Finset.sum_congr rfl fun d _ => by rw [hx d, hc d]
  rw [e1, e2, e3]

end Cert.Rbf

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.RbfTile.lean ====
/-
  One grid point's tile, on the extended reals: the body's stored value, computed from a 1024 × 256 block `x` of `data` and a
  512 × 256 block `cs` of `centers`, is the Gaussian kernel matrix of the two blocks.

  The body's value at `(p, q)` is `exp (-5 · ((R + C) - 2 · M))` of three arrays read there:
  • `R`, the row sums of `x ⊙ x` (a lane sum into a zero accumulator), viewed as a column and spread along the lanes: at
    `(p, q)` it is `‖x_p‖²`;
  • `C`, the row sums of `cs ⊙ cs`, viewed as a row and spread along the sublanes: at `(p, q)` it is `‖c_q‖²`;
  • `M`, the matrix product of `x` with the transpose of `cs` into a zero accumulator, both operands first narrowed to bf16,
    which on the extended reals changes nothing: at `(p, q)` it is the contraction over the shared axis, `∑ d, x (p, d) · cs (q, d)`.
-/
import proofs.«113538_j31482110280409_1_alg».proof.Proof.Gen.KernelIdeal.Skeleton
import proofs.«113538_j31482110280409_1_alg».proof.Proof.RbfSpec
import proofs.«113538_j31482110280409_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx

/-! ## The three arrays the body combines -/

/-- `R`: the squared norms of the rows of `x`, as a column spread over 512 lanes. -/
def rowNorms (x : FVec Ideal S1024x256 .f32) : FVec Ideal S1024x512 .f32 :=
  broadcastTo S1024x512 (shapeCast S1024x1 (multiReduction (F := Ideal) .add [1] S1024 (mulf x x) 0x00000000#32 reduces_S1024x256_S1024 (.inl rfl) rfl) shapeCasts_S1024_S1024x1) broadcasts_S1024x1_S1024x512

/-- `C`: the squared norms of the rows of `cs`, as a row spread over 1024 sublanes. -/
def centerNorms (cs : FVec Ideal S512x256 .f32) : FVec Ideal S1024x512 .f32 :=
  broadcastTo S1024x512 (shapeCast S1x512 (multiReduction (F := Ideal) .add [1] S512 (mulf cs cs) 0x00000000#32 reduces_S512x256_S512 (.inl rfl) rfl) shapeCasts_S512_S1x512) broadcasts_S1x512_S1024x512

/-- `M`: `x` times the transpose of `cs`, into zeros. -/
def gram (x : FVec Ideal S1024x256 .f32) (cs : FVec Ideal S512x256 .f32) : FVec Ideal S1024x512 .f32 :=
  matmul dot_S1024x256_S256x512_S1024x512_1_0_0_1_n_n none (truncf .bf16 x bitsLt_bf16_f32)
    (transpose S256x512 [1, 0] (truncf .bf16 cs bitsLt_bf16_f32) transposes_S512x256_p1_0_S256x512) (constant (F := Ideal) S1024x512 .f32 0x00000000#32)

/-- The body's value, entry by entry, from the three: every other operation of the body acts on one entry at a time. -/
theorem tile_split (x : Vec Ideal S1024x256 .f32) (cs : Vec Ideal S512x256 .f32) (j : S1024x512.Idx) :
    k0_pay1 (F := Ideal) x cs j = Rbf.gauss (rowNorms x j) (centerNorms cs j) (gram x cs j) := rfl

/-! ## Each of the three at an entry -/

theorem rowNorms_apply (x : FVec Ideal S1024x256 .f32) (p : Fin 1024) (q : Fin 512) :
    rowNorms x (ix2 p q) = Rbf.sqnorm x p := by
  unfold rowNorms
  refine (Cert.LibKeepdims.broadcastTo_a1_ab_apply _ broadcasts_S1024x1_S1024x512 p q).trans ?_
  refine (Cert.LibKeepdims.shapeCast_a_a1_apply _ shapeCasts_S1024_S1024x1 p (0 : Fin 1)).trans ?_
  refine (Ideal.multiReduction_add_single (mulf x x) 0x00000000#32 reduces_S1024x256_S1024 (.inl rfl) rfl (ix1 p)).trans ?_
  refine Finset.sum_congr rfl fun d _ => ?_
  have e : (reduces_S1024x256_S1024 : S1024x256.Reduces [1] S1024).lift (ix1 p) d = ix2 p d :=
    funext fun a => Fin.ext (by match a with | ⟨0, _⟩ => rfl | ⟨1, _⟩ => rfl)
  rw [e]; rfl

theorem centerNorms_apply (cs : FVec Ideal S512x256 .f32) (p : Fin 1024) (q : Fin 512) :
    centerNorms cs (ix2 p q) = Rbf.sqnorm cs q := by
  unfold centerNorms
  refine (broadcastTo_1b_ab_apply _ broadcasts_S1x512_S1024x512 p q).trans ?_
  refine (shapeCast_a_1a_apply _ shapeCasts_S512_S1x512 (0 : Fin 1) q).trans ?_
  refine (Ideal.multiReduction_add_single (mulf cs cs) 0x00000000#32 reduces_S512x256_S512 (.inl rfl) rfl (ix1 q)).trans ?_
  refine Finset.sum_congr rfl fun d _ => ?_
  have e : (reduces_S512x256_S512 : S512x256.Reduces [1] S512).lift (ix1 q) d = ix2 q d :=
    funext fun a => Fin.ext (by match a with | ⟨0, _⟩ => rfl | ⟨1, _⟩ => rfl)
  rw [e]; rfl

/-! The product's two operand indices at an output entry and a contraction index, axis by axis: the left operand is read at
    (output row, contraction), the right one — already transposed — at (contraction, output column). -/

theorem lhs_row (i : S1024x512.Idx) (k : dot_S1024x256_S256x512_S1024x512_1_0_0_1_n_n.contr.Idx) :
    (dot_S1024x256_S256x512_S1024x512_1_0_0_1_n_n.lhsIdx i k 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_contr (i : S1024x512.Idx) (k : dot_S1024x256_S256x512_S1024x512_1_0_0_1_n_n.contr.Idx) :
    (dot_S1024x256_S256x512_S1024x512_1_0_0_1_n_n.lhsIdx i k 1).val = (k ⟨0, by decide⟩).val :=
  dot_S1024x256_S256x512_S1024x512_1_0_0_1_n_n.lhsIdx_val_of_single rfl i k
theorem rhs_contr (i : S1024x512.Idx) (k : dot_S1024x256_S256x512_S1024x512_1_0_0_1_n_n.contr.Idx) :
    (dot_S1024x256_S256x512_S1024x512_1_0_0_1_n_n.rhsIdx i k 0).val = (k ⟨0, by decide⟩).val :=
  dot_S1024x256_S256x512_S1024x512_1_0_0_1_n_n.rhsIdx_val_of_single rfl i k
theorem rhs_col (i : S1024x512.Idx) (k : dot_S1024x256_S256x512_S1024x512_1_0_0_1_n_n.contr.Idx) :
    (dot_S1024x256_S256x512_S1024x512_1_0_0_1_n_n.rhsIdx i k 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

theorem gram_apply (x : FVec Ideal S1024x256 .f32) (cs : FVec Ideal S512x256 .f32) (p : Fin 1024) (q : Fin 512) :
    gram x cs (ix2 p q) = Rbf.inner x cs p q := by
  unfold gram Rbf.inner
  simp only [matmul]
  rw [Ideal.matmul_constant_zero_apply, ← Equiv.sum_comp (contrEquiv1 dot_S1024x256_S256x512_S1024x512_1_0_0_1_n_n 256 rfl rfl).symm]
  refine Finset.sum_congr rfl fun d _ => ?_
  have hd := contrEquiv1_symm_val dot_S1024x256_S256x512_S1024x512_1_0_0_1_n_n 256 rfl rfl d
  have el : dot_S1024x256_S256x512_S1024x512_1_0_0_1_n_n.lhsIdx (ix2 p q) ((contrEquiv1 dot_S1024x256_S256x512_S1024x512_1_0_0_1_n_n 256 rfl rfl).symm d) = ix2 p d := funext fun a => Fin.ext (by
    match a with
    | ⟨0, _⟩ => exact lhs_row _ _
    | ⟨1, _⟩ => exact (lhs_contr _ _).trans hd)
  have er : dot_S1024x256_S256x512_S1024x512_1_0_0_1_n_n.rhsIdx (ix2 p q) ((contrEquiv1 dot_S1024x256_S256x512_S1024x512_1_0_0_1_n_n 256 rfl rfl).symm d) = ix2 d q := funext fun a => Fin.ext (by
    match a with
    | ⟨0, _⟩ => exact (rhs_contr _ _).trans hd
    | ⟨1, _⟩ => exact rhs_col _ _)
  rw [el, er, transpose_ix2_apply]
  rfl

/-! ## The tile -/

/-- The body's stored value is the kernel matrix of its two blocks. -/
theorem tile_eq (x : Vec Ideal S1024x256 .f32) (cs : Vec Ideal S512x256 .f32) :
    k0_pay1 (F := Ideal) x cs = Rbf.kernelMatrix x cs := by
  funext j
  obtain ⟨p, q, rfl⟩ : ∃ (p : Fin 1024) (q : Fin 512), j = ix2 p q := ⟨j 0, j 1, eq_ix2 j⟩
  rw [tile_split, rowNorms_apply, centerNorms_apply, gram_apply, Rbf.kernelMatrix_ix2]

end Cert.KernelIdeal.Tile

end
-- ==== Proof.LibNary3.lean ====
/-
  A host operation with three operands, read at its own result buffer.

  An operation built over a family of operand references leaves, at its result, its function of the family of the operands'
  contents. For a LITERAL family of three references that family is the three contents themselves, each at its own reference —
  the form in which the contents can be rewritten further, one operand at a time (under the family's binder the reference
  `![x, a, b] k` is not a literal, so nothing known about `x`, `a` or `b` applies to it). A join of three arrays along an axis
  is such an operation.
-/
import Idealize.ShloMosaic.Lib.StableHlo.Run

namespace Cert.LibNary3

open Idealize.ShloMosaic Idealize.ShloMosaic.StableHlo Idealize.ShloMosaic.TcCoe

variable {τ : Topo} {sig : RefSig} {Val : EltTy → Type} {x a b y : Ref sig .tc}

/-- The result of a three-operand operation, with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3
-- ==== Proof.RbfArray.lean ====
/-
  The idealized kernel's @main, read on the extended reals: the array the region writes is the Gaussian kernel matrix of `data` and
  `centers`, and @main's result is the column of ones, `data` and that matrix joined along axis 1.

  Grid point `t` is the pair (⌊t / 4⌋, t mod 4): the `data` window moves with the first coordinate (row tiles of 1024), the
  `centers` window with the second (row tiles of 512), and the output window with both, its 1024 × 512 blocks tiling the
  65536 × 2048 array. What point `t` writes back is the kernel matrix of its two blocks; an entry of the kernel matrix depends only
  on one row of each array, and row `p` of a block is row `(block index) · (block rows) + p` of its array, so this is block `t` of the
  whole kernel matrix. Every entry `(n, k)` lies in the block of the point (⌊n / 1024⌋, ⌊k / 512⌋), so the array ends holding the
  whole matrix. The three lines after the region then read it, and `data`, unchanged.
-/
import proofs.«113538_j31482110280409_1_alg».proof.Proof.IdealRegion
import proofs.«113538_j31482110280409_1_alg».proof.Proof.RbfTile
import proofs.«113538_j31482110280409_1_alg».proof.Proof.LibNary3
import Idealize.ShloMosaic.Lib.Pipeline.Value

noncomputable section

namespace Cert.KernelIdeal.Matrix

open Cert.KernelIdeal Cert.KernelIdeal.Gen Cert.KernelIdeal.Region
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The kernel matrix of the two arrays as the region finds them. -/
abbrev whole (c : Dev nD) : S65536x2048.Idx → EReal :=
  Rbf.kernelMatrix (V m c main_arg0) (V m c main_arg1)

theorem origin : (![0, 0] : Fin 2 → Nat) = fun _ => 0 := funext fun a => by fin_cases a <;> rfl

/-- The three index maps over the grid: point `t` is (⌊t / 4⌋, t mod 4). -/
theorem block_indices : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = t.val % 4 :=
  (by decide +kernel : ∀ t : Fin grid0.N, _)

/-- What point `t` writes back is block `t` of the whole kernel matrix. -/
theorem written_back (c : Dev nD) (t : Fin cfg0.N) :
    (dats m 0 c).flushed 2 t = ((cfg0.win 2).blk t).view.read (Elt Ideal) (whole m c) := by
  show (cfg0.win 2).cut (grid0.coords t) ((dats m 0 c).after 2 t) = _
  rw [after_out]
  unfold tile
  rw [View.canon_unit_zero origin]
  simp only [View.ld_unit_zero (S := S1024x256) origin, View.ld_unit_zero (S := S512x256) origin]
  obtain ⟨a0, a1, b0, b1, o0, o1⟩ := block_indices t
  funext j
  show k0_pay1 (F := Ideal) (blockAt m c 0 t) (blockAt m c 1 t) j = whole m c (((cfg0.win 2).blk t).view.emb j)
  rw [Tile.tile_eq]
  obtain ⟨p, q, rfl⟩ : ∃ (p : Fin 1024) (q : Fin 512), j = ix2 p q := ⟨j 0, j 1, eq_ix2 j⟩
  have hn : (t.val / 4) * 1024 + p.val < 65536 := by have := t.isLt; have : cfg0.N = 256 := N_0; have := p.isLt; omega
  have hk : (t.val % 4) * 512 + q.val < 2048 := by have := q.isLt; omega
  have e : ((cfg0.win 2).blk t).view.emb (ix2 p q) = ix2 (⟨(t.val / 4) * 1024 + p.val, hn⟩ : Fin 65536) (⟨(t.val % 4) * 512 + q.val, hk⟩ : Fin 2048) := by
    funext a; apply Fin.ext
    match a with
    | ⟨0, _⟩ => show win0_2.index t (0 : Fin 2) * 1024 + 1 * p.val = (t.val / 4) * 1024 + p.val; omega
    | ⟨1, _⟩ => show win0_2.index t (1 : Fin 2) * 512 + 1 * q.val = (t.val % 4) * 512 + q.val; omega
  rw [e]
  refine Rbf.kernelMatrix_of_rows (V m c main_arg0) (V m c main_arg1) (blockAt m c 0 t) (blockAt m c 1 t) p q _ _ (fun d => ?_) (fun d => ?_)
  · show V m c main_arg0 (((cfg0.win 0).blk t).view.emb (ix2 p d)) = V m c main_arg0 (ix2 _ d)
    refine congrArg (V m c main_arg0) (funext fun a => Fin.ext ?_)
    match a with
    | ⟨0, _⟩ => show win0_0.index t (0 : Fin 2) * 1024 + 1 * p.val = (t.val / 4) * 1024 + p.val; omega
    | ⟨1, _⟩ => show win0_0.index t (1 : Fin 2) * 256 + 1 * d.val = d.val; omega
  · show V m c main_arg1 (((cfg0.win 1).blk t).view.emb (ix2 q d)) = V m c main_arg1 (ix2 _ d)
    refine congrArg (V m c main_arg1) (funext fun a => Fin.ext ?_)
    match a with
    | ⟨0, _⟩ => show win0_1.index t (0 : Fin 2) * 512 + 1 * q.val = (t.val % 4) * 512 + q.val; omega
    | ⟨1, _⟩ => show win0_1.index t (1 : Fin 2) * 256 + 1 * d.val = d.val; omega

/-- An entry is in point `t`'s output block iff each coordinate is in the block's range on its axis. -/
theorem mem_block (t : Fin cfg0.N) (i : S65536x2048.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- Every entry is in some point's block: `(n, k)` in that of the point (⌊n / 1024⌋, ⌊k / 512⌋). -/
theorem covered (i : S65536x2048.Idx) :
    ∃ t : Fin cfg0.N, (cfg0.win 2).flush t = true ∧ i ∈ ((cfg0.win 2).blk t).view.set := by
  have hi0 : (i 0).val < 65536 := (i 0).isLt
  have hi1 : (i 1).val < 2048 := (i 1).isLt
  have hN : cfg0.N = 256 := N_0
  let t : Fin cfg0.N := ⟨(i 0).val / 1024 * 4 + (i 1).val / 512, by omega⟩
  obtain ⟨a0, a1, b0, b1, o0, o1⟩ := block_indices t
  have ht : t.val = (i 0).val / 1024 * 4 + (i 1).val / 512 := rfl
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- So the region leaves the whole kernel matrix in its output array. -/
theorem region_result (c : Dev nD) : (dats m 0 c).arrAt 2 cfg0.N = whole m c :=
  (dats m 0 c).arrAt_eq_of_cover 2 (whole m c) (fun t _ => written_back m c t) covered

/-- `data` after the region: an input window's array is never written. -/
theorem region_data (c : Dev nD) : (dats m 0 c).arrAt 0 cfg0.N = m ((c : Thread nD τ).loc main_arg0) :=
  ((dats m 0 c).arrAt_in 0 rfl _).trans ((dats_A m c 0).trans (V_data m c))

/-! ## The lines after the region -/

/-- @main's result: ones, `data` and the kernel matrix, joined along axis 1. -/
def joined (x0 : S65536x256.Idx → EReal) (x1 : S2048x256.Idx → EReal) : S65536x2305.Idx → EReal :=
  concatenate S65536x2305 1 [⟨S65536x1, broadcastInDim S65536x1 ![] bcast_S_S65536x1 (constant (F := Ideal) S_ .f32 0x3F800000#32)⟩,
    ⟨S65536x256, x0⟩, ⟨S65536x2048, Rbf.kernelMatrix x0 x1⟩] concatenates_S65536x1_S65536x256_S65536x2048_S65536x2305_d1

/-- The core's buffers at the region's exit: the pipeline's arrays at what the proof data wrote back, every other buffer as the
    region found it. -/
abbrev atExit (c : Dev nD) : Valuation τ sig (Elt Ideal) :=
  Pipeline.withArrays (cfgs 0).spec c (V0 m c) fun w => (dats m 0 c).arrAt w (cfgs 0).N

theorem exit_data (c : Dev nD) : atExit m c (Proc.devRef .tc main_arg0) = m ((c : Thread nD τ).loc main_arg0) :=
  (Pipeline.withArrays_arr spec0 launch0.win.arr_inj c _ _ 0).trans (region_data m c)

theorem exit_matrix (c : Dev nD) :
    atExit m c (Proc.devRef .tc main_v0) = Rbf.kernelMatrix (m ((c : Thread nD τ).loc main_arg0)) (m ((c : Thread nD τ).loc main_arg1)) :=
  (Pipeline.withArrays_arr spec0 launch0.win.arr_inj c _ _ 2).trans (region_result m c)

/-- The third line joins the column the second line made of the first line's one, `data` as the region left it, and the region's
    output array. -/
theorem tail_result (c : Dev nD) :
    Pipeline.afterTail₀ cfgs (dats m) 0 (V0 m) [hostOps1] c main_v2
      = joined (m ((c : Thread nD τ).loc main_arg0)) (m ((c : Thread nD τ).loc main_arg1)) := by
  unfold Pipeline.afterTail₀
  show StableHlo.after hostOps1 (atExit m c) (Proc.devRef .tc main_v2) = _
  simp only [StableHlo.after_cons, StableHlo.after_nil]
  rw [Cert.LibNary3.nary3_result, StableHlo.unary_result, StableHlo.nullary_result]
  rw [StableHlo.unary_result_ne]; rotate_left; decide
  rw [StableHlo.nullary_result_ne]; rotate_left; decide
  rw [StableHlo.unary_result_ne]; rotate_left; decide
  rw [StableHlo.nullary_result_ne]; rotate_left; decide
  rw [exit_data, exit_matrix]
  rfl

/-! ## The run, read -/

/-- Every weakly fair execution of the idealized kernel's @main terminates with the result buffer at `joined` of the two arguments,
    and the arguments as launched. -/
theorem run : θ_run defs (onTc (τ := τ) (main (F := Ideal))) ⟨m, fun _ => 0, ρ⟩ fun r => ∀ c : Dev nD,
      r.2.mem ((c : Thread nD τ).loc main_v2) = joined (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v2 (by decide)).trans (tail_result m c),
      ((h c).1 0).trans (region_data m c),
      ((h c).1 1).trans (((dats m 0 c).arrAt_in 1 rfl _).trans ((dats_A m c 1).trans (V_centers m c)))⟩)
    (run_main m ρ)

end Cert.KernelIdeal.Matrix

end
-- ==== Proof.RbfReference.lean ====
/-
  The reference's matrix, on the extended reals: the stage the reference exponentiates, read at an entry `(n, k)`, is the
  Gaussian kernel matrix of `data` and `centers`.

  Read one operation at a time, the reference forms `0 + ∑ d, x (n, d)²` as a vector, makes it a column and spreads it over the
  2048 columns; `0 + ∑ d, c (k, d)²` likewise as a row spread over the 65536 rows; the contraction `∑ d, x (n, d) · c (k, d)`;
  and then `exp (-5 · ((· + ·) - 2 · ·))` entry by entry. The initial value of each host sum is the word of `0.0`, which is the real
  zero, so it drops out; what remains is the specification's entry.
-/
import proofs.«113538_j31482110280409_1_alg».proof.Proof.Gen.ReferenceIdeal.Read
import proofs.«113538_j31482110280409_1_alg».proof.Proof.RbfSpec

noncomputable section

namespace Cert.ReferenceIdeal.Matrix

open Cert.ReferenceIdeal Cert.ReferenceIdeal.Gen Cert.ReferenceIdeal.Read
open Idealize.ShloMosaic Idealize.ShloMosaic.ValueIdx

/-! The composed index maps of the layout stages, at an entry `(n, k)` and a column `d`: the column of row norms is read at row
    `n`, the row of center norms at row `k`, and the contraction's two operands at `(n, d)` and `(k, d)`. -/

theorem data_row (n : Fin 65536) (k : Fin 2048) (d : Fin 256) :
    idx_main_v1 (idx_main_v2 (idx_main_v7 (ix2 n k))) d = ix2 n d :=
  funext fun a => Fin.ext (by match a with | ⟨0, _⟩ => rfl | ⟨1, _⟩ => rfl)

theorem center_row (n : Fin 65536) (k : Fin 2048) (d : Fin 256) :
    idx_main_v4 (idx_main_v5 (idx_main_v8 (ix2 n k))) d = ix2 k d :=
  funext fun a => Fin.ext (by match a with | ⟨0, _⟩ => rfl | ⟨1, _⟩ => rfl)

theorem contraction_left (n : Fin 65536) (k : Fin 2048) (d : Fin 256) : lidx_main_v6 (ix2 n k) d = ix2 n d :=
  funext fun a => Fin.ext (by match a with | ⟨0, _⟩ => rfl | ⟨1, _⟩ => rfl)

theorem contraction_right (n : Fin 65536) (k : Fin 2048) (d : Fin 256) : ridx_main_v6 (ix2 n k) d = ix2 k d :=
  funext fun a => Fin.ext (by match a with | ⟨0, _⟩ => rfl | ⟨1, _⟩ => rfl)

/-- The exponentiated stage is the kernel matrix of the two arguments. -/
theorem exponential_stage (x0 : (⟨S65536x256, .f32⟩ : BufTy).Contents (Elt Ideal)) (x1 : (⟨S2048x256, .f32⟩ : BufTy).Contents (Elt Ideal)) :
    val_main_v15 (F := Ideal) x0 x1 = Rbf.kernelMatrix x0 x1 := by
  funext j
  obtain ⟨n, k, rfl⟩ : ∃ (n : Fin 65536) (k : Fin 2048), j = ix2 n k := ⟨j 0, j 1, eq_ix2 j⟩
  rw [val_main_v15_apply, val_main_v14_apply, val_main_v13_apply, val_main_cst_2_apply, val_main_v12_apply, val_main_v9_apply,
    val_main_v7_apply, val_main_v2_apply, val_main_v1_apply, val_main_cst_apply, val_main_v8_apply, val_main_v5_apply, val_main_v4_apply,
    val_main_cst_0_apply, val_main_v11_apply, val_main_v10_apply, val_main_cst_1_apply, val_main_v6_apply]
  simp only [val_main_v0_apply, val_main_v3_apply, data_row, center_row, contraction_left, contraction_right,
    Ideal.hostUnary_exp_def, Ideal.mulf_def, Ideal.subf_def, Ideal.addf_def, Ideal.ofBits_def, Ideal.ofBits_zero_f32, zero_add]
  rfl

end Cert.ReferenceIdeal.Matrix

end
-- ==== Proof.lean ====
/-
  The certificate of the Gaussian-kernel feature map: for `data` (65536 × 256) and `centers` (2048 × 256) the kernel program and
  the reference both return the column of ones, `data`, and the matrix `exp (-5 · (‖x_n‖² + ‖c_k‖² - 2 · ⟨x_n, c_k⟩))`, joined
  along axis 1.

  The kernel computes the matrix tile by tile in one pallas_call over a 64 × 4 grid (its Gram term by a bf16 matrix product, which
  on the extended reals is the exact contraction) and joins the three pieces on the host; the reference computes the matrix whole on
  the host (its Gram term by a `dot_general`) and joins the same three pieces. On the extended reals both matrices are the one
  function `Rbf.kernelMatrix` of the two arguments, entry by entry: the same sums, the same two scale words, the same exponential. No
  step uses that the inputs are finite: only sums are regrouped, never a product distributed over one.

  Frames: the two kernel programs by the region's run (every input window is only read); the reference by its run with the result
  dropped. The idealization rewrote nothing, so there is nothing to preserve.
-/
import proofs.«113538_j31482110280409_1_alg».proof.Defs
import proofs.«113538_j31482110280409_1_alg».proof.Proof.Gen.Kernel
import proofs.«113538_j31482110280409_1_alg».proof.Proof.Gen.KernelIdeal
import proofs.«113538_j31482110280409_1_alg».proof.Proof.Gen.ReferenceIdeal
import proofs.«113538_j31482110280409_1_alg».proof.Proof.Gen.Pre_finite_inputs
import proofs.«113538_j31482110280409_1_alg».proof.Proof.Gen.ReferenceIdeal.Run
import proofs.«113538_j31482110280409_1_alg».proof.Proof.Gen.ReferenceIdeal.Read
import proofs.«113538_j31482110280409_1_alg».proof.Proof.BitsRegion
import proofs.«113538_j31482110280409_1_alg».proof.Proof.IdealRegion
import proofs.«113538_j31482110280409_1_alg».proof.Proof.RbfArray
import proofs.«113538_j31482110280409_1_alg».proof.Proof.RbfReference
import Idealize.ShloMosaic.Adequacy
import Idealize.ShloMosaic.Init

noncomputable section

namespace Cert.Proof

open Idealize.ShloMosaic Idealize.ShloMosaic.TcCoe Idealize.SL.Sem

/-- The reference's result term is the same join: its first piece is the same column of ones, its second `data`, and its third, the
    exponentiated stage, is the kernel matrix. -/
theorem reference_joined (x0 : (⟨Cert.ReferenceIdeal.S65536x256, .f32⟩ : BufTy).Contents (Elt Ideal))
    (x1 : (⟨Cert.ReferenceIdeal.S2048x256, .f32⟩ : BufTy).Contents (Elt Ideal)) :
    Cert.ReferenceIdeal.Read.val_main_v17 (F := Ideal) x0 x1 = Cert.KernelIdeal.Matrix.joined x0 x1 := by
  unfold Cert.ReferenceIdeal.Read.val_main_v17
  rw [Cert.ReferenceIdeal.Matrix.exponential_stage]
  rfl

theorem frame_kernel : Cert.frame_Kernel := fun m ρ _ => Cert.Kernel.Region.frame m ρ

theorem frame_ideal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result buffer at `joined` of arguments that agree. -/
theorem algebraic : Cert.algebraic_KernelIdeal_ReferenceIdeal := by
  intro m ρ m' ρ' _ hagree
  refine ⟨_, Cert.KernelIdeal.Matrix.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v17_eq _ _).trans (reference_joined _ _)

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
